-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S4x4096x1024 .f32) (main_arg1 : FVec F S8 .f32) (main_arg2 : FVec F S4096x8 .f32) (main_arg3 : FVec F S1024x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S16384x1024 : Shape := ⟨2, ![16384, 1024]⟩
abbrev S512x1024 : Shape := ⟨2, ![512, 1024]⟩
abbrev S512x8 : Shape := ⟨2, ![512, 8]⟩
abbrev S1x8 : Shape := ⟨2, ![1, 8]⟩
abbrev S512x4096 : Shape := ⟨2, ![512, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S16384x1024, .f32⟩
  | .hbm, ⟨5, _⟩ => ⟨S8, .f32⟩
  | .hbm, ⟨6, _⟩ => ⟨S4096x8, .bf16⟩
  | .hbm, ⟨7, _⟩ => ⟨S1024x4096, .bf16⟩
  | .hbm, ⟨8, _⟩ => ⟨S16384x1024, .f32⟩
  | .hbm, ⟨9, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S8, .f32⟩
  | .local _ .vmem, ⟨3, _⟩ => ⟨S4096x8, .bf16⟩
  | .local _ .vmem, ⟨4, _⟩ => ⟨S1024x4096, .bf16⟩
  | .local _ .vmem, ⟨5, _⟩ => ⟨S512x1024, .f32⟩
  | .local _ .vmem, ⟨6, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x1024_S16384x1024 : S4x4096x1024.ShapeCasts S16384x1024
  bitsLt_bf16_f32 : FTy.bits .bf16 < FTy.bits .f32
  inb_S512x1024_S512x8_0_0 : ∀ a, (![0, 0] : Fin 2 → Nat) a + S512x8.size a ≤ S512x1024.size a
  h_S512x8 : 0 < S512x8.numel
  shapeCasts_S512x8_S512x8 : S512x8.ShapeCasts S512x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S512x8 : S1x8.Broadcasts S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S16384x1024_S4x4096x1024 : S16384x1024.ShapeCasts S4x4096x1024
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S4x4096x8 : Shape := ⟨3, ![4, 4096, 8]⟩
abbrev S1x1x8 : Shape := ⟨3, ![1, 1, 8]⟩
abbrev S4x4096x4096 : Shape := ⟨3, ![4, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S4x4096x8, .f32⟩
  | .hbm, ⟨5, _⟩ => ⟨S4x4096x8, .f32⟩
  | .hbm, ⟨6, _⟩ => ⟨S8, .f32⟩
  | .hbm, ⟨7, _⟩ => ⟨S1x1x8, .f32⟩
  | .hbm, ⟨8, _⟩ => ⟨S4x4096x8, .f32⟩
  | .hbm, ⟨9, _⟩ => ⟨S4x4096x8, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S_S4x4096x4096 : S_.BroadcastsInDim S4x4096x4096 (![] : Fin 0 → Fin S4x4096x4096.rank)
  dot_S4x4096x8_S4096x8_S4x4096x4096_2_1_01_0_n_n_wf : DotDims.WF S4x4096x8 S4096x8 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The function both programs compute, one token at a time.

  A token is a row of 1024 features, of which only the first 8 are read. With `c q` the cosine of the
  q-th angle, W1 a 4096 × 8 matrix and W2 a 1024 × 4096 matrix, feature `d` of the token's output is

      Σ_f  max ( Σ_q (cos (x q) · c q) · W1[f, q] , 0 ) · W2[d, f]

  over the extended reals: an 8-term inner sum (the first layer at hidden unit `f`), clipped below at
  zero, then a 4096-term sum against row `d` of W2. `tokenOut` is that number; `cubeOut` lays the tokens
  out as the 4 × 4096 × 1024 array both programs return, token (b, s) reading x[b, s, 0..7] and the
  cosines of the eight angles; `flatOut` is the same over the 16384 × 1024 array of flattened tokens.
  The zero is kept as the word both programs write for it, so it is never evaluated.
-/
import Idealize.ShloMosaic.PureOps.Ideal
import Idealize.ShloMosaic.Lib.ValueIdx

noncomputable section

namespace Cert.Qffn

open Idealize.ShloMosaic Idealize.ShloMosaic.ValueIdx

/-- One of the eight features a token's encoder reads, as a feature index of the 1024-wide row. -/
abbrev lane (q : Fin 8) : Fin 1024 := ⟨q.val, by have := q.isLt; omega⟩

/-- Output feature `d` of one token: the clipped first layer summed against row `d` of the second. -/
def tokenOut (xr c : Fin 8 → EReal) (W1 : (⟨2, ![4096, 8]⟩ : Shape).Idx → EReal)
    (W2 : (⟨2, ![1024, 4096]⟩ : Shape).Idx → EReal) (d : Fin 1024) : EReal :=
  ∑ f : Fin 4096, max (∑ q : Fin 8, (Ideal.cos (xr q) * c q) * W1 (ix2 (n0 := 4096) (n1 := 8) f q))
    (Ideal.ofBits .f32 0x00000000#32) * W2 (ix2 (n0 := 1024) (n1 := 4096) d f)

/-- The whole result over the 4 × 4096 × 1024 input: token (b, s) reads x[b, s, 0..7] and cos θ. -/
def cubeOut (x : (⟨3, ![4, 4096, 1024]⟩ : Shape).Idx → EReal) (θ : (⟨1, ![8]⟩ : Shape).Idx → EReal)
    (W1 : (⟨2, ![4096, 8]⟩ : Shape).Idx → EReal) (W2 : (⟨2, ![1024, 4096]⟩ : Shape).Idx → EReal) :
    (⟨3, ![4, 4096, 1024]⟩ : Shape).Idx → EReal :=
  fun i => tokenOut (fun q => x (ix3 (n0 := 4) (n1 := 4096) (n2 := 1024) (i 0) (i 1) (lane q)))
    (fun q => Ideal.cos (θ (ix1 (n := 8) q))) W1 W2 (i 2)

/-- The same over flattened tokens: row `r` of a 16384 × 1024 array is one token, `c` the cosines already taken. -/
def flatOut (X : (⟨2, ![16384, 1024]⟩ : Shape).Idx → EReal) (c : (⟨1, ![8]⟩ : Shape).Idx → EReal)
    (W1 : (⟨2, ![4096, 8]⟩ : Shape).Idx → EReal) (W2 : (⟨2, ![1024, 4096]⟩ : Shape).Idx → EReal) :
    (⟨2, ![16384, 1024]⟩ : Shape).Idx → EReal :=
  fun i => tokenOut (fun q => X (ix2 (n0 := 16384) (n1 := 1024) (i 0) (lane q)))
    (fun q => c (ix1 (n := 8) q)) W1 W2 (i 1)

/-- A row of the flattened array is one token: `flatOut` at index `i` is `tokenOut` of whatever the eight
    features of row `i 0` and the eight cosines are, at feature `i 1`. -/
theorem flatOut_of_row (X : (⟨2, ![16384, 1024]⟩ : Shape).Idx → EReal) (c : (⟨1, ![8]⟩ : Shape).Idx → EReal)
    (W1 : (⟨2, ![4096, 8]⟩ : Shape).Idx → EReal) (W2 : (⟨2, ![1024, 4096]⟩ : Shape).Idx → EReal)
    (i : (⟨2, ![16384, 1024]⟩ : Shape).Idx) (xr cr : Fin 8 → EReal) (d : Fin 1024)
    (hx : ∀ q, xr q = X (ix2 (n0 := 16384) (n1 := 1024) (i 0) (lane q))) (hc : ∀ q, cr q = c (ix1 (n := 8) q))
    (hd : d = i 1) : tokenOut xr cr W1 W2 d = flatOut X c W1 W2 i := by
  subst hd
  unfold flatOut
  rw [show xr = _ from funext hx, show cr = _ from funext hc]

/-- Flattening the tokens changes nothing: if row `r 0` of the flattened array holds token (b, s)'s eight
    features, the cosines are those of the angles, and the feature is the same, the two layouts agree. -/
theorem flatOut_eq_cubeOut (x : (⟨3, ![4, 4096, 1024]⟩ : Shape).Idx → EReal) (θ : (⟨1, ![8]⟩ : Shape).Idx → EReal)
    (W1 : (⟨2, ![4096, 8]⟩ : Shape).Idx → EReal) (W2 : (⟨2, ![1024, 4096]⟩ : Shape).Idx → EReal)
    (X : (⟨2, ![16384, 1024]⟩ : Shape).Idx → EReal) (c : (⟨1, ![8]⟩ : Shape).Idx → EReal)
    (i : (⟨3, ![4, 4096, 1024]⟩ : Shape).Idx) (r : (⟨2, ![16384, 1024]⟩ : Shape).Idx)
    (hX : ∀ q, X (ix2 (n0 := 16384) (n1 := 1024) (r 0) (lane q))
      = x (ix3 (n0 := 4) (n1 := 4096) (n2 := 1024) (i 0) (i 1) (lane q)))
    (hc : ∀ q, c (ix1 (n := 8) q) = Ideal.cos (θ (ix1 (n := 8) q))) (hd : r 1 = i 2) :
    flatOut X c W1 W2 r = cubeOut x θ W1 W2 i := by
  unfold flatOut cubeOut
  rw [hd, show (fun q => X (ix2 (n0 := 16384) (n1 := 1024) (r 0) (lane q))) = _ from funext hX,
    show (fun q => c (ix1 (n := 8) q)) = _ from funext hc]

end Cert.Qffn

end
-- ==== Proof.RefValue.lean ====
/-
  The reference is the specification: read one operation at a time, its result at index (b, s, d) is
  `tokenOut` of x[b, s, 0..7], the cosines of the angles, W1 and W2 at `d`. The slice keeps the first eight
  features; the angles' cosines are broadcast along tokens; the two contractions are the sums over the
  eight lanes and over the 4096 hidden units; the clip is the maximum with the zero word.
-/
import proofs.«179488_j65481071410275_1_alg».proof.Proof.Gen.ReferenceIdeal.Read
import proofs.«179488_j65481071410275_1_alg».proof.Proof.Spec

noncomputable section

namespace Cert.ReferenceIdeal.RefValue

open Cert.ReferenceIdeal Cert.ReferenceIdeal.Gen Cert.ReferenceIdeal.Read Cert.Qffn
open Idealize.ShloMosaic Idealize.ShloMosaic.TcCoe Idealize.ShloMosaic.ValueIdx

/-- Row `d` of W2 at hidden unit `f`. -/
theorem w2_at (i : S4x4096x1024.Idx) (f : Fin 4096) :
    ridx_main_v8 i f = ix2 (n0 := 1024) (n1 := 4096) (i 2) f :=
  funext fun a => Fin.ext (by match a with | ⟨0, _⟩ => rfl | ⟨1, _⟩ => rfl)

/-- Row `f` of W1 at lane `q`, for the hidden unit `f` the outer sum is at. -/
theorem w1_at (i : S4x4096x1024.Idx) (f : Fin 4096) (q : Fin 8) :
    ridx_main_v6 (lidx_main_v8 i f) q = ix2 (n0 := 4096) (n1 := 8) f q :=
  funext fun a => Fin.ext (by match a with | ⟨0, _⟩ => rfl | ⟨1, _⟩ => rfl)

/-- The input feature the first layer reads at lane `q`: x[b, s, q]. -/
theorem x_at (i : S4x4096x1024.Idx) (f : Fin 4096) (q : Fin 8) :
    idx_main_v0 (lidx_main_v6 (lidx_main_v8 i f) q) = ix3 (n0 := 4) (n1 := 4096) (n2 := 1024) (i 0) (i 1) (lane q) :=
  funext fun a => Fin.ext (by match a with | ⟨0, _⟩ => rfl | ⟨1, _⟩ => rfl | ⟨2, _⟩ => rfl)

/-- The angle the broadcast cosine reads at lane `q`. -/
theorem θ_at (i : S4x4096x1024.Idx) (f : Fin 4096) (q : Fin 8) :
    idx_main_v3 (idx_main_v4 (lidx_main_v6 (lidx_main_v8 i f) q)) = ix1 (n := 8) q :=
  funext fun a => Fin.ext (by match a with | ⟨0, _⟩ => rfl)

/-- The reference's last stage is the specification, index by index. -/
theorem ref_eq (x : (⟨S4x4096x1024, .f32⟩ : BufTy).Contents (Elt Ideal)) (θ : (⟨S8, .f32⟩ : BufTy).Contents (Elt Ideal))
    (W1 : (⟨S4096x8, .f32⟩ : BufTy).Contents (Elt Ideal)) (W2 : (⟨S1024x4096, .f32⟩ : BufTy).Contents (Elt Ideal)) :
    val_main_v8 (F := Ideal) x θ W1 W2 = cubeOut x θ W1 W2 := by
  funext i
  rw [val_main_v8_apply]
  unfold cubeOut tokenOut
  refine Finset.sum_congr rfl fun f _ => ?_
  rw [val_main_v7_apply, val_main_v6_apply, val_main_call0_v0_apply, val_main_call0_cst_apply, w2_at]
  simp only [val_main_v5_apply, val_main_v1_apply, val_main_v0_apply, val_main_v4_apply, val_main_v3_apply,
    val_main_v2_apply, w1_at, x_at, θ_at, Ideal.maximumf_def, Ideal.mulf_def, Ideal.hostUnary_cos_def, Ideal.ofBits_def]

end Cert.ReferenceIdeal.RefValue

end
-- ==== Proof.KernelPayload.lean ====
/-
  The kernel body's one stored value, read at an index.

  At a grid point the body loads the first eight columns of its 512 × 1024 block of tokens, the eight cosines,
  W1 and W2 whole, and stores one 512 × 1024 value. Entry (p, d) of that value is `tokenOut` of row p's eight
  features: the cosine of the features times the cosines laid along the rows, contracted against W1 over
  the eight lanes (each contraction into a zero accumulator is the plain sum), clipped at the zero word,
  contracted against W2 over the 4096 hidden units. The changes of float format and the shape casts to the
  same shape are identities.
-/
import proofs.«179488_j65481071410275_1_alg».proof.Proof.Gen.KernelIdeal.Skeleton
import proofs.«179488_j65481071410275_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Qffn
open Idealize.ShloMosaic Idealize.ShloMosaic.TcCoe Idealize.ShloMosaic.ValueIdx

/-! ## The first contraction's operand indices, axis by axis: output (p, f) reads z[p, k] and W1[f, k] -/

theorem first_l0 (j : S512x4096.Idx) (k : dot_S512x8_S4096x8_S512x4096_1_1_0_0_n_n.contr.Idx) :
    (dot_S512x8_S4096x8_S512x4096_1_1_0_0_n_n.lhsIdx j k 0).val = (j 0).val := by
  unfold DotDims.lhsIdx
  rw [dif_neg (show ¬(0 : Fin S512x8.rank) ∈ dot_S512x8_S4096x8_S512x4096_1_1_0_0_n_n.lhsBatch by decide), dif_pos (show (0 : Fin S512x8.rank) ∈ dot_S512x8_S4096x8_S512x4096_1_1_0_0_n_n.lhsNonContracting by decide)]
  rfl
theorem first_l1 (j : S512x4096.Idx) (k : dot_S512x8_S4096x8_S512x4096_1_1_0_0_n_n.contr.Idx) :
    (dot_S512x8_S4096x8_S512x4096_1_1_0_0_n_n.lhsIdx j k 1).val = (k ⟨0, by decide⟩).val :=
  dot_S512x8_S4096x8_S512x4096_1_1_0_0_n_n.lhsIdx_val_of_single rfl j k
theorem first_r0 (j : S512x4096.Idx) (k : dot_S512x8_S4096x8_S512x4096_1_1_0_0_n_n.contr.Idx) :
    (dot_S512x8_S4096x8_S512x4096_1_1_0_0_n_n.rhsIdx j k 0).val = (j 1).val := by
  unfold DotDims.rhsIdx
  rw [dif_neg (show ¬(0 : Fin S4096x8.rank) ∈ dot_S512x8_S4096x8_S512x4096_1_1_0_0_n_n.rhsBatch by decide), dif_pos (show (0 : Fin S4096x8.rank) ∈ dot_S512x8_S4096x8_S512x4096_1_1_0_0_n_n.rhsNonContracting by decide)]
  rfl
theorem first_r1 (j : S512x4096.Idx) (k : dot_S512x8_S4096x8_S512x4096_1_1_0_0_n_n.contr.Idx) :
    (dot_S512x8_S4096x8_S512x4096_1_1_0_0_n_n.rhsIdx j k 1).val = (k ⟨0, by decide⟩).val :=
  dot_S512x8_S4096x8_S512x4096_1_1_0_0_n_n.rhsIdx_val_of_single rfl j k

/-! ## The second contraction's: output (p, d) reads h[p, k] and W2[d, k] -/

theorem second_l0 (j : S512x1024.Idx) (k : dot_S512x4096_S1024x4096_S512x1024_1_1_0_0_n_n.contr.Idx) :
    (dot_S512x4096_S1024x4096_S512x1024_1_1_0_0_n_n.lhsIdx j k 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem second_l1 (j : S512x1024.Idx) (k : dot_S512x4096_S1024x4096_S512x1024_1_1_0_0_n_n.contr.Idx) :
    (dot_S512x4096_S1024x4096_S512x1024_1_1_0_0_n_n.lhsIdx j k 1).val = (k ⟨0, by decide⟩).val :=
  dot_S512x4096_S1024x4096_S512x1024_1_1_0_0_n_n.lhsIdx_val_of_single rfl j k
theorem second_r0 (j : S512x1024.Idx) (k : dot_S512x4096_S1024x4096_S512x1024_1_1_0_0_n_n.contr.Idx) :
    (dot_S512x4096_S1024x4096_S512x1024_1_1_0_0_n_n.rhsIdx j k 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem second_r1 (j : S512x1024.Idx) (k : dot_S512x4096_S1024x4096_S512x1024_1_1_0_0_n_n.contr.Idx) :
    (dot_S512x4096_S1024x4096_S512x1024_1_1_0_0_n_n.rhsIdx j k 1).val = (k ⟨0, by decide⟩).val :=
  dot_S512x4096_S1024x4096_S512x1024_1_1_0_0_n_n.rhsIdx_val_of_single rfl j k

/-! ## The two contractions as sums -/

/-- The first layer before the clip, at token p and hidden unit f: the sum over the eight lanes. -/
theorem first_apply (a : FVec Ideal S512x8 .bf16) (w : FVec Ideal S4096x8 .bf16) (p : Fin 512) (n : Fin 4096) :
    matmul dot_S512x8_S4096x8_S512x4096_1_1_0_0_n_n none a w (constant S512x4096 .f32 0x00000000#32) (ix2 (n0 := 512) (n1 := 4096) p n)
      = ∑ k : Fin 8, a (ix2 (n0 := 512) (n1 := 8) p k) * w (ix2 (n0 := 4096) (n1 := 8) n k) := by
  simp only [matmul]
  rw [Ideal.matmul_constant_zero_apply, ← Equiv.sum_comp (contrEquiv1 dot_S512x8_S4096x8_S512x4096_1_1_0_0_n_n 8 rfl rfl).symm]
  refine Finset.sum_congr rfl fun k _ => ?_
  have hk := contrEquiv1_symm_val dot_S512x8_S4096x8_S512x4096_1_1_0_0_n_n 8 rfl rfl k
  have el : dot_S512x8_S4096x8_S512x4096_1_1_0_0_n_n.lhsIdx (ix2 (n0 := 512) (n1 := 4096) p n) ((contrEquiv1 dot_S512x8_S4096x8_S512x4096_1_1_0_0_n_n 8 rfl rfl).symm k) = ix2 (n0 := 512) (n1 := 8) p k := funext fun x => Fin.ext (by
    match x with
    | ⟨0, _⟩ => exact first_l0 _ _
    | ⟨1, _⟩ => exact (first_l1 _ _).trans hk)
  have er : dot_S512x8_S4096x8_S512x4096_1_1_0_0_n_n.rhsIdx (ix2 (n0 := 512) (n1 := 4096) p n) ((contrEquiv1 dot_S512x8_S4096x8_S512x4096_1_1_0_0_n_n 8 rfl rfl).symm k) = ix2 (n0 := 4096) (n1 := 8) n k := funext fun x => Fin.ext (by
    match x with
    | ⟨0, _⟩ => exact first_r0 _ _
    | ⟨1, _⟩ => exact (first_r1 _ _).trans hk)
  rw [el, er]

/-- The second layer at token p and output feature d: the sum over the 4096 hidden units. -/
theorem second_apply (a : FVec Ideal S512x4096 .bf16) (w : FVec Ideal S1024x4096 .bf16) (p : Fin 512) (n : Fin 1024) :
    matmul dot_S512x4096_S1024x4096_S512x1024_1_1_0_0_n_n none a w (constant S512x1024 .f32 0x00000000#32) (ix2 (n0 := 512) (n1 := 1024) p n)
      = ∑ k : Fin 4096, a (ix2 (n0 := 512) (n1 := 4096) p k) * w (ix2 (n0 := 1024) (n1 := 4096) n k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 (n0 := 512) (n1 := 1024) p n) ((contrEquiv1 dot_S512x4096_S1024x4096_S512x1024_1_1_0_0_n_n 4096 rfl rfl).symm k) = ix2 (n0 := 512) (n1 := 4096) p k := funext fun x => Fin.ext (by
    match x with
    | ⟨0, _⟩ => exact second_l0 _ _
    | ⟨1, _⟩ => exact (second_l1 _ _).trans hk)
  have er : dot_S512x4096_S1024x4096_S512x1024_1_1_0_0_n_n.rhsIdx (ix2 (n0 := 512) (n1 := 1024) p n) ((contrEquiv1 dot_S512x4096_S1024x4096_S512x1024_1_1_0_0_n_n 4096 rfl rfl).symm k) = ix2 (n0 := 1024) (n1 := 4096) n k := funext fun x => Fin.ext (by
    match x with
    | ⟨0, _⟩ => exact second_r0 _ _
    | ⟨1, _⟩ => exact (second_r1 _ _).trans hk)
  rw [el, er]

/-! ## The cosines laid along the rows -/

/-- The eight cosines, viewed as one row and repeated down the 512 rows, read at (p, q): the q-th cosine. -/
theorem angles_apply (c : FVec Ideal S8 .f32) (p : Fin 512) (q : Fin 8) :
    broadcastTo S512x8 (shapeCast S1x8 c shapeCasts_S8_S1x8) broadcasts_S1x8_S512x8 (ix2 (n0 := 512) (n1 := 8) p q)
      = c (ix1 (n := 8) q) := by
  rw [broadcastTo_apply _ broadcasts_S1x8_S512x8 (ix2 (n0 := 512) (n1 := 8) p q) (ix2 (n0 := 1) (n1 := 8) 0 q) (fun a => by
    match a with
    | ⟨0, _⟩ => show 0 = if (1 : Nat) = 1 then 0 else _; rw [if_pos rfl]
    | ⟨1, _⟩ => show q.val = if (8 : Nat) = 1 then 0 else q.val; rw [if_neg (by decide)])]
  exact shapeCast_apply c shapeCasts_S8_S1x8 (ix2 (n0 := 1) (n1 := 8) 0 q) (ix1 (n := 8) q) (by
    rw [Shape.rowMajor_val_one, Shape.rowMajor_val_two]
    show q.val = 0 * 8 + q.val
    omega)

/-! ## The stored value -/

/-- Entry (p, d) of the value the body stores is the specification's `tokenOut` at row p's eight features. -/
theorem pay_apply (v0 : Vec Ideal S512x8 .f32) (v3 : Vec Ideal S8 .f32) (v9 : Vec Ideal S4096x8 .bf16) (v15 : Vec Ideal S1024x4096 .bf16)
    (p : Fin 512) (d : Fin 1024) :
    k0_pay1 v0 v3 v9 v15 (ix2 (n0 := 512) (n1 := 1024) p d)
      = tokenOut (fun q => v0 (ix2 (n0 := 512) (n1 := 8) p q)) (fun q => v3 (ix1 (n := 8) q)) v9 v15 d := by
  unfold k0_pay1 tokenOut
  simp only [shapeCast_self]
  rw [second_apply]
  refine Finset.sum_congr rfl fun f _ => ?_
  rw [truncf_apply, maximumf_apply, first_apply, broadcast_apply]
  congr 2
  refine Finset.sum_congr rfl fun q _ => ?_
  rw [truncf_apply, mulf_apply, angles_apply]
  rfl

end Cert.KernelIdeal.Body

end
-- ==== Proof.KernelValue.lean ====
/-
  What the kernel program leaves in its result, read off the frame run.

  The grid has 32 points; point t stages rows 512 t … 512 t + 511 of the flattened 16384 × 1024 token array,
  the eight cosines, W1 and W2 whole, and writes back rows 512 t … 512 t + 511 of the output. Row p of what point t
  writes is `tokenOut` of row 512 t + p of the tokens, so each written block is the restriction of ONE function of
  the arrays as the region finds them, `flatOut`; the 32 blocks cover the output, which therefore ends as `flatOut`.
  Before the region the host flattens the 4 × 4096 × 1024 input, takes the cosines of the angles and changes the
  weights' float format (the identity on extended reals); after it the host reshapes the 16384 × 1024 output back.
  Row 4096 b + s of the flattened array is token (b, s), so the result is `cubeOut` of the four arguments.
-/
import proofs.«179488_j65481071410275_1_alg».proof.Proof.Gen.KernelIdeal.Frame
import proofs.«179488_j65481071410275_1_alg».proof.Proof.KernelPayload
import Idealize.ShloMosaic.Lib.Pipeline.Value
import Idealize.ShloMosaic.Lib.StableHlo.Run
import Idealize.ShloMosaic.Lib.Tactic

set_option maxRecDepth 16384

noncomputable section

namespace Cert.KernelIdeal.RegionValue

open Cert.KernelIdeal Cert.KernelIdeal.Gen Cert.KernelIdeal.Body Cert.Qffn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the 32 points: the token window and the output window are at block row t, the
    cosines and the two weight matrices at block 0. -/
theorem block_indices : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The staged blocks as parts of the arrays -/

/-- Row p, lane q of the first eight columns of point t's token block is row 512 t + p, column q of the tokens. -/
theorem tokens_at (c : Dev nD) (t : Fin cfg0.N) (p : Fin 512) (q : Fin 8) (k : S16384x1024.Idx)
    (hk0 : (k 0).val = 512 * t.val + p.val) (hk1 : (k 1).val = q.val) :
    View.ld (iblk m c 0 t : Vec Ideal S512x1024 .f32) r0_0 (ix2 (n0 := 512) (n1 := 8) p q)
      = (V m c main_v0 : S16384x1024.Idx → EReal) k := by
  obtain ⟨e0, e1, -⟩ := block_indices t
  unfold iblk
  show V m c main_v0 (((cfg0.win 0).blk t).view.emb (r0_0.idx (ix2 (n0 := 512) (n1 := 8) p q))) = V m c main_v0 k
  congr 1
  funext a
  apply Fin.ext
  match a with
  | ⟨0, _⟩ => show win0_0.index t (0 : Fin 2) * 512 + 1 * (0 + 1 * p.val) = (k 0).val; rw [e0, hk0]; omega
  | ⟨1, _⟩ => show win0_0.index t (1 : Fin 2) * 1024 + 1 * (0 + 1 * q.val) = (k 1).val; rw [e1, hk1]; omega

/-- The staged cosines are the cosine array. -/
theorem cosines_at (c : Dev nD) (t : Fin cfg0.N) :
    (iblk m c 1 t : Vec Ideal S8 .f32) = (V m c main_v1 : S8.Idx → EReal) := by
  obtain ⟨-, -, e, -⟩ := block_indices t
  funext y
  unfold iblk
  show V m c main_v1 (((cfg0.win 1).blk t).view.emb y) = V m c main_v1 y
  congr 1
  funext a
  apply Fin.ext
  match a with
  | ⟨0, _⟩ => show win0_1.index t (0 : Fin 1) * 8 + 1 * (y 0).val = (y 0).val; rw [e]; omega

/-- The staged first-layer weights are the whole matrix. -/
theorem w1_at (c : Dev nD) (t : Fin cfg0.N) :
    (iblk m c 2 t : Vec Ideal S4096x8 .bf16) = (V m c main_v2 : S4096x8.Idx → EReal) := by
  obtain ⟨-, -, -, e0, e1, -⟩ := block_indices t
  funext y
  unfold iblk
  show V m c main_v2 (((cfg0.win 2).blk t).view.emb y) = V m c main_v2 y
  congr 1
  funext a
  apply Fin.ext
  match a with
  | ⟨0, _⟩ => show win0_2.index t (0 : Fin 2) * 4096 + 1 * (y 0).val = (y 0).val; rw [e0]; omega
  | ⟨1, _⟩ => show win0_2.index t (1 : Fin 2) * 8 + 1 * (y 1).val = (y 1).val; rw [e1]; omega

/-- The staged second-layer weights are the whole matrix. -/
theorem w2_at (c : Dev nD) (t : Fin cfg0.N) :
    (iblk m c 3 t : Vec Ideal S1024x4096 .bf16) = (V m c main_v3 : S1024x4096.Idx → EReal) := by
  obtain ⟨-, -, -, -, -, e0, e1, -⟩ := block_indices t
  funext y
  unfold iblk
  show V m c main_v3 (((cfg0.win 3).blk t).view.emb y) = V m c main_v3 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

/-! ## What a point writes back, and the array after the region -/

/-- The arrays as the region finds them, at their literal types. -/
abbrev tokens (c : Dev nD) : S16384x1024.Idx → EReal := V m c main_v0
abbrev cosines (c : Dev nD) : S8.Idx → EReal := V m c main_v1
abbrev weights1 (c : Dev nD) : S4096x8.Idx → EReal := V m c main_v2
abbrev weights2 (c : Dev nD) : S1024x4096.Idx → EReal := V m c main_v3

/-- Point t writes back block t of `flatOut` of the arrays as the region finds them. -/
theorem flushed_eq (c : Dev nD) (t : Fin cfg0.N) :
    (dats m 0 c).flushed 4 t = ((cfg0.win 4).blk t).view.read (Elt Ideal)
      (flatOut (tokens m c) (cosines m c) (weights1 m c) (weights2 m c)) := by
  show (cfg0.win 4).cut (grid0.coords t) ((dats m 0 c).after 4 t) = _
  rw [after0_4]
  unfold out0_4
  rw [View.canon_unit_zero zero2]
  simp only [View.ld_unit_zero (S := S8) zero1, View.ld_unit_zero (S := S4096x8) zero2, View.ld_unit_zero (S := S1024x4096) zero2]
  rw [cosines_at, w1_at, w2_at]
  obtain ⟨-, -, -, -, -, -, -, e0, e1⟩ := block_indices t
  funext j
  obtain ⟨p, d, rfl⟩ : ∃ (p : Fin 512) (d : Fin 1024), j = ix2 (n0 := 512) (n1 := 1024) p d := ⟨j 0, j 1, eq_ix2 j⟩
  refine (pay_apply (View.ld (iblk m c 0 t : Vec Ideal S512x1024 .f32) r0_0) (V m c main_v1) (V m c main_v2) (V m c main_v3) p d).trans ?_
  show _ = flatOut (tokens m c) (cosines m c) (weights1 m c) (weights2 m c) (((cfg0.win 4).blk t).view.emb (ix2 (n0 := 512) (n1 := 1024) p d))
  refine flatOut_of_row _ _ _ _ _ _ _ d (fun q => tokens_at m c t p q _ ?_ rfl) (fun q => rfl) (Fin.ext ?_)
  · show win0_4.index t (0 : Fin 2) * 512 + 1 * p.val = 512 * t.val + p.val
    rw [e0]; omega
  · show d.val = win0_4.index t (1 : Fin 2) * 1024 + 1 * d.val
    rw [e1]; omega

/-- An index of the output is in point t's block iff each coordinate is in the block's range on its axis. -/
theorem mem_block (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4).slice (win0_4.rect t)).set ↔ _
  rw [View.set_slice_whole, Rect.mem_set_unit]
  exact Iff.rfl

/-- Every row of the output is in some point's block: row r in point r / 512's. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨-, -, -, -, -, -, -, e0, e1⟩ := block_indices t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 1024 ≤ (i 1).val ∧ (i 1).val < win0_4.index t (1 : Fin 2) * 1024 + 1024
    rw [e1]; omega

/-- The output array after the region is `flatOut` of the arrays as the region finds them. -/
theorem region_out (c : Dev nD) :
    (dats m 0 c).arrAt 4 cfg0.N = flatOut (tokens m c) (cosines m c) (weights1 m c) (weights2 m c) :=
  (dats m 0 c).arrAt_eq_of_cover 4 (flatOut (tokens m c) (cosines m c) (weights1 m c) (weights2 m c))
    (fun t _ => flushed_eq m c t) covered

/-! ## The host lines before the region -/

/-- The tokens are the input flattened. -/
theorem tokens_eq (c : Dev nD) :
    tokens m c = shapeCast S16384x1024 (m ((c.tc : Thread nD τ).loc main_arg0)) shapeCasts_S4x4096x1024_S16384x1024 := by
  show StableHlo.after hostOps0 (fun b => m (c, b)) (Proc.devRef .tc main_v0) = _
  after_results
  rfl

/-- The cosines are those of the angles. -/
theorem cosines_eq (c : Dev nD) : cosines m c = Host.cos (F := Ideal) (φ := .f32) (m ((c.tc : Thread nD τ).loc main_arg1) : S8.Idx → EReal) := by
  show StableHlo.after hostOps0 (fun b => m (c, b)) (Proc.devRef .tc main_v1) = _
  after_results

/-- The first-layer weights in the narrower float format are, on extended reals, the weights. -/
theorem weights1_eq (c : Dev nD) : weights1 m c = (m ((c.tc : Thread nD τ).loc main_arg2) : S4096x8.Idx → EReal) := by
  show StableHlo.after hostOps0 (fun b => m (c, b)) (Proc.devRef .tc main_v2) = _
  after_results
  rfl

/-- The second-layer weights likewise. -/
theorem weights2_eq (c : Dev nD) : weights2 m c = (m ((c.tc : Thread nD τ).loc main_arg3) : S1024x4096.Idx → EReal) := by
  show StableHlo.after hostOps0 (fun b => m (c, b)) (Proc.devRef .tc main_v3) = _
  after_results
  rfl

/-! ## The host line after the region, and the result -/

/-- The result is the region's output array reshaped to 4 × 4096 × 1024. -/
theorem result_reshaped (c : Dev nD) :
    Pipeline.afterTail₀ cfgs (dats m) 0 (V0 m) [hostOps1] c main_v5
      = shapeCast S4x4096x1024 ((dats m 0 c).arrAt 4 cfg0.N) shapeCasts_S16384x1024_S4x4096x1024 := by
  unfold Pipeline.afterTail₀
  show StableHlo.after hostOps1 _ (Proc.devRef .tc main_v5) = _
  after_results
  exact congrArg (fun A : S16384x1024.Idx → EReal => shapeCast S4x4096x1024 A shapeCasts_S16384x1024_S4x4096x1024)
    (Pipeline.withArrays_arr spec0 launch0.win.arr_inj c _ _ 4)

/-- The result is the specification of the four arguments. -/
theorem result_eq (c : Dev nD) :
    Pipeline.afterTail₀ cfgs (dats m) 0 (V0 m) [hostOps1] c main_v5
      = cubeOut (m ((c.tc : Thread nD τ).loc main_arg0)) (m ((c.tc : Thread nD τ).loc main_arg1)) (m ((c.tc : Thread nD τ).loc main_arg2)) (m ((c.tc : Thread nD τ).loc main_arg3)) := by
  rw [result_reshaped, region_out]
  funext i
  obtain ⟨b, s, d, rfl⟩ : ∃ (b : Fin 4) (s : Fin 4096) (d : Fin 1024), i = ix3 (n0 := 4) (n1 := 4096) (n2 := 1024) b s d :=
    ⟨i 0, i 1, i 2, eq_ix3 i⟩
  have hb : b.val < 4 := b.isLt
  have hs : s.val < 4096 := s.isLt
  rw [shapeCast_apply _ shapeCasts_S16384x1024_S4x4096x1024 (ix3 (n0 := 4) (n1 := 4096) (n2 := 1024) b s d)
    (ix2 (n0 := 16384) (n1 := 1024) ⟨b.val * 4096 + s.val, by omega⟩ d) (by
      rw [Shape.rowMajor_val_two, Shape.rowMajor_val_three]
      show (b.val * 4096 + s.val) * 1024 + d.val = (b.val * 4096 + s.val) * 1024 + d.val
      rfl)]
  refine flatOut_eq_cubeOut _ _ _ _ _ _ _ _ (fun q => ?_) (fun q => ?_) rfl
  · rw [tokens_eq]
    exact shapeCast_apply _ shapeCasts_S4x4096x1024_S16384x1024 _ _ (by
      rw [Shape.rowMajor_val_three, Shape.rowMajor_val_two]
      show (b.val * 4096 + s.val) * 1024 + q.val = (b.val * 4096 + s.val) * 1024 + q.val
      rfl)
  · rw [cosines_eq]
    rfl

/-! ## The run, read -/

/-- Every weakly fair execution of the kernel program ends with the result at the specification of the arguments
    and the arguments unchanged. -/
theorem run : θ_run defs (onTc (τ := τ) (main (F := Ideal))) ⟨m, fun _ => 0, ρ⟩ fun r => ∀ c : Dev nD,
      r.2.mem ((c.tc : Thread nD τ).loc main_v5) = cubeOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RegionValue

end
-- ==== Proof.lean ====
/-
  A two-layer feed-forward block behind an eight-angle encoder, as one fused kernel against its plain reference.

  Each of the 4 × 4096 tokens is a row of 1024 features of which only the first eight are read. With θ the eight
  angles, W1 a 4096 × 8 and W2 a 1024 × 4096 matrix, feature d of token (b, s)'s output is

      Σ_f  max ( Σ_q (cos x[b, s, q] · cos θ[q]) · W1[f, q] , 0 ) · W2[d, f]

  (`Cert.Qffn.cubeOut`, Proof/Spec.lean). The reference computes exactly this, one operation at a time
  (Proof/RefValue.lean over the generated reading of its run). The kernel flattens the tokens to 16384 rows, takes
  the cosines of the angles on the host, and at each of 32 grid points computes 512 rows of the output from 512 rows
  of tokens, the cosines, W1 and W2: the same two contractions, into zero accumulators, with the same clip between
  them; its changes of float format are identities on the extended reals (Proof/KernelPayload.lean). The 32 blocks
  tile the output and the host reshapes it back (Proof/KernelValue.lean). The two sides apply the same operations
  to the same operands in the same order, and a contraction is a finite sum on either side, so no law beyond
  re-indexing a sum is used and the inputs' finiteness is never needed. The three frames are the generated ones
  (the reference's is its generated run with the result dropped); the idealization rewrote nothing, so the
  preservation claim is `True`.
-/
import proofs.«179488_j65481071410275_1_alg».proof.Defs
import proofs.«179488_j65481071410275_1_alg».proof.Proof.Gen.Kernel
import proofs.«179488_j65481071410275_1_alg».proof.Proof.Gen.Kernel.Frame
import proofs.«179488_j65481071410275_1_alg».proof.Proof.Gen.KernelIdeal
import proofs.«179488_j65481071410275_1_alg».proof.Proof.Gen.KernelIdeal.Frame
import proofs.«179488_j65481071410275_1_alg».proof.Proof.Gen.ReferenceIdeal
import proofs.«179488_j65481071410275_1_alg».proof.Proof.Gen.Pre_finite_inputs
import proofs.«179488_j65481071410275_1_alg».proof.Proof.Gen.ReferenceIdeal.Run
import proofs.«179488_j65481071410275_1_alg».proof.Proof.Gen.ReferenceIdeal.Read
import proofs.«179488_j65481071410275_1_alg».proof.Proof.RefValue
import proofs.«179488_j65481071410275_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the specification of the arguments, which agree. -/
theorem algebraic : Cert.algebraic_KernelIdeal_ReferenceIdeal := by
  intro m ρ m' ρ' _ hagree
  refine ⟨fun c => Cert.Qffn.cubeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v8 (F := Ideal) _ _ _ _ = _
  rw [Cert.ReferenceIdeal.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
